-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S8x8192x64 : Shape := ⟨3, ![8, 8192, 64]⟩
abbrev S8x8192 : Shape := ⟨2, ![8, 8192]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_

variable [Facts]

def fn {F : FTy → Type} [FloatOps F] (main_arg0 : IVec S2097152 32) (main_arg1 : IVec S2097152 32) (main_arg2 : IVec S2097152 32) (main_arg3 : FVec F S2097152 .f32) (main_arg4 : FVec F S8x8192x64 .f32) (main_arg5 : IVec S8x8192 1) (main_arg6 : IVec S8x8192 1) : IVec S_ 1 :=
  let main_v0 : FVec F S2097152 .f32 := Host.absf main_arg3
  let main_cst : FVec F S_ .f32 := constant S_ .f32 0x7F800000#32
  let main_v1 : FVec F S2097152 .f32 := broadcastInDim S2097152 ![] bcast_S_S2097152 main_cst
  let main_v2 : IVec S2097152 1 := cmpf .olt main_v0 main_v1
  let main_c : IVec S_ 1 := constantI S_ 1 1#1
  let main_v3 : IVec S_ 1 := (fun x v => Host.reduce IntOp.andi x v reducesTo_S2097152_S_d0 h_S_) main_v2 main_c
  let main_v4 : FVec F S8x8192x64 .f32 := Host.absf main_arg4
  let main_cst_0 : FVec F S_ .f32 := constant S_ .f32 0x7F800000#32
  let main_v5 : FVec F S8x8192x64 .f32 := broadcastInDim S8x8192x64 ![] bcast_S_S8x8192x64 main_cst_0
  let main_v6 : IVec S8x8192x64 1 := cmpf .olt main_v4 main_v5
  let main_c_1 : IVec S_ 1 := constantI S_ 1 1#1
  let main_v7 : IVec S_ 1 := (fun x v => Host.reduce IntOp.andi x v reducesTo_S8x8192x64_S_d0_1_2 h_S_) main_v6 main_c_1
  let main_v8 : IVec S_ 1 := andi main_v3 main_v7
  main_v8
-- ==== Kernel.lean ====
abbrev S2097152 : Shape := ⟨1, ![2097152]⟩
abbrev S8x8192x64 : Shape := ⟨3, ![8, 8192, 64]⟩
abbrev S8x8192 : Shape := ⟨2, ![8, 8192]⟩
abbrev S_ : Shape := ⟨0, ![]⟩
abbrev S2097152x1 : Shape := ⟨2, ![2097152, 1]⟩
abbrev S2097152x2 : Shape := ⟨2, ![2097152, 2]⟩
abbrev S2097152x64 : Shape := ⟨2, ![2097152, 64]⟩
abbrev S8192x64 : Shape := ⟨2, ![8192, 64]⟩
abbrev S8192x1 : Shape := ⟨2, ![8192, 1]⟩
abbrev S65536x64 : Shape := ⟨2, ![65536, 64]⟩
abbrev S8x8192x1 : Shape := ⟨3, ![8, 8192, 1]⟩
abbrev S1x8192x64 : Shape := ⟨3, ![1, 8192, 64]⟩
abbrev S1x8192x1 : Shape := ⟨3, ![1, 8192, 1]⟩

abbrev nBuf : Space → Nat
  | .hbm => 59
  | .vmem => 12
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S2097152, .i32⟩
  | .hbm, ⟨3, _⟩ => ⟨S2097152, .f32⟩
  | .hbm, ⟨4, _⟩ => ⟨S8x8192x64, .f32⟩
  | .hbm, ⟨5, _⟩ => ⟨S8x8192, .i1⟩
  | .hbm, ⟨6, _⟩ => ⟨S8x8192, .i1⟩
  | .hbm, ⟨7, _⟩ => ⟨S8x8192, .f32⟩
  | .hbm, ⟨8, _⟩ => ⟨S_, .i32⟩
  | .hbm, ⟨9, _⟩ => ⟨S2097152, .i32⟩
  | .hbm, ⟨10, _⟩ => ⟨S2097152, .i1⟩
  | .hbm, ⟨11, _⟩ => ⟨S_, .i32⟩
  | .hbm, ⟨12, _⟩ => ⟨S2097152, .i32⟩
  | .hbm, ⟨13, _⟩ => ⟨S2097152, .i32⟩
  | .hbm, ⟨14, _⟩ => ⟨S2097152, .i32⟩
  | .hbm, ⟨15, _⟩ => ⟨S_, .i32⟩
  | .hbm, ⟨16, _⟩ => ⟨S2097152, .i32⟩
  | .hbm, ⟨17, _⟩ => ⟨S2097152, .i1⟩
  | .hbm, ⟨18, _⟩ => ⟨S_, .i32⟩
  | .hbm, ⟨19, _⟩ => ⟨S2097152, .i32⟩
  | .hbm, ⟨20, _⟩ => ⟨S2097152, .i32⟩
  | .hbm, ⟨21, _⟩ => ⟨S2097152, .i32⟩
  | .hbm, ⟨22, _⟩ => ⟨S2097152x1, .i32⟩
  | .hbm, ⟨23, _⟩ => ⟨S2097152x1, .i32⟩
  | .hbm, ⟨24, _⟩ => ⟨S2097152x2, .i32⟩
  | .hbm, ⟨25, _⟩ => ⟨S2097152x64, .f32⟩
  | .hbm, ⟨26, _⟩ => ⟨S_, .i32⟩
  | .hbm, ⟨27, _⟩ => ⟨S2097152, .i32⟩
  | .hbm, ⟨28, _⟩ => ⟨S2097152, .i1⟩
  | .hbm, ⟨29, _⟩ => ⟨S_, .i32⟩
  | .hbm, ⟨30, _⟩ => ⟨S2097152, .i32⟩
  | .hbm, ⟨31, _⟩ => ⟨S2097152, .i32⟩
  | .hbm, ⟨32, _⟩ => ⟨S2097152, .i32⟩
  | .hbm, ⟨33, _⟩ => ⟨S_, .i32⟩
  | .hbm, ⟨34, _⟩ => ⟨S2097152, .i32⟩
  | .hbm, ⟨35, _⟩ => ⟨S2097152, .i1⟩
  | .hbm, ⟨36, _⟩ => ⟨S_, .i32⟩
  | .hbm, ⟨37, _⟩ => ⟨S2097152, .i32⟩
  | .hbm, ⟨38, _⟩ => ⟨S2097152, .i32⟩
  | .hbm, ⟨39, _⟩ => ⟨S2097152, .i32⟩
  | .hbm, ⟨40, _⟩ => ⟨S2097152x1, .i32⟩
  | .hbm, ⟨41, _⟩ => ⟨S2097152x1, .i32⟩
  | .hbm, ⟨42, _⟩ => ⟨S2097152x2, .i32⟩
  | .hbm, ⟨43, _⟩ => ⟨S2097152, .f32⟩
  | .hbm, ⟨44, _⟩ => ⟨S2097152, .f32⟩
  | .hbm, ⟨45, _⟩ => ⟨S2097152x1, .f32⟩
  | .hbm, ⟨46, _⟩ => ⟨S2097152x64, .f32⟩
  | .hbm, ⟨47, _⟩ => ⟨S_, .i32⟩
  | .hbm, ⟨48, _⟩ => ⟨S2097152, .i32⟩
  | .hbm, ⟨49, _⟩ => ⟨S2097152, .i32⟩
  | .hbm, ⟨50, _⟩ => ⟨S2097152, .i32⟩
  | .hbm, ⟨51, _⟩ => ⟨S_, .f32⟩
  | .hbm, ⟨52, _⟩ => ⟨S65536x64, .f32⟩
  | .hbm, ⟨53, _⟩ => ⟨S2097152x1, .i32⟩
  | .hbm, ⟨54, _⟩ => ⟨S65536x64, .f32⟩
  | .hbm, ⟨55, _⟩ => ⟨S8x8192x64, .f32⟩
  | .hbm, ⟨56, _⟩ => ⟨S8x8192, .f32⟩
  | .hbm, ⟨57, _⟩ => ⟨S8x8192x1, .f32⟩
  | .hbm, ⟨58, _⟩ => ⟨S8x8192x64, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x64, .f32⟩
  | .local _ .vmem, ⟨5, _⟩ => ⟨S8192x64, .f32⟩
  | .local _ .vmem, ⟨6, _⟩ => ⟨S1x8192x64, .f32⟩
  | .local _ .vmem, ⟨7, _⟩ => ⟨S1x8192x64, .f32⟩
  | .local _ .vmem, ⟨8, _⟩ => ⟨S1x8192x1, .f32⟩
  | .local _ .vmem, ⟨9, _⟩ => ⟨S1x8192x1, .f32⟩
  | .local _ .vmem, ⟨10, _⟩ => ⟨S1x8192x64, .f32⟩
  | .local _ .vmem, ⟨11, _⟩ => ⟨S1x8192x64, .f32⟩
  | _, _ => ⟨S2097152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  shapeCasts_S2097152_S2097152x1 : S2097152.ShapeCasts S2097152x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S65536x64 : S_.BroadcastsInDim S65536x64 (![] : Fin 0 → Fin S65536x64.rank)
  shapeCasts_S65536x64_S8x8192x64 : S65536x64.ShapeCasts S8x8192x64
  shapeCasts_S8x8192_S8x8192x1 : S8x8192.ShapeCasts S8x8192x1
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S1x8192x64 : S1x8192x64.ShapeCasts S1x8192x64
  inb_S1x8192x1_S1x8192x1_0_0_0 : ∀ a, (![0, 0, 0] : Fin 3 → Nat) a + S1x8192x1.size a ≤ S1x8192x1.size a
  h_S1x8192x1 : 0 < S1x8192x1.numel
  shapeCasts_S1x8192x1_S1x8192x1 : S1x8192x1.ShapeCasts S1x8192x1
  broadcasts_S1x8192x1_S1x8192x64 : S1x8192x1.Broadcasts S1x8192x64
  gather_S8x8192x64_S2097152x2_S2097152x64_1_01_n_n_01_1_1164_wf : GatherDims.WF S8x8192x64 S2097152x2 S2097152x64 [1] [0, 1] [] [0, 1] [] 1 ![1, 1, 64]
  gather_S8x8192_S2097152x2_S2097152_n_01_n_n_01_1_11_wf : GatherDims.WF S8x8192 S2097152x2 S2097152 [] [0, 1] [] [0, 1] [] 1 ![1, 1]
  scatter_S65536x64_S2097152x1_S2097152x64_1_0_0_1_wf : ScatterDims.WF S65536x64 S2097152x1 S2097152x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S2097152x64.size a
  hwx0_0 : ∀ i : grid0.Coords, EltTy.bits .f32 = 32 ∨ (Rect.block (s := S2097152x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S2097152x1.size a
  hwx0_1 : ∀ i : grid0.Coords, EltTy.bits .f32 = 32 ∨ (Rect.block (s := S2097152x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S2097152x64.size a
  hwx0_2 : ∀ i : grid0.Coords, EltTy.bits .f32 = 32 ∨ (Rect.block (s := S2097152x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x64.size a ≤ S8x8192x64.size a
  hwx1_0 : ∀ i : grid1.Coords, EltTy.bits .f32 = 32 ∨ (Rect.block (s := S8x8192x64) S1x8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x1.size a ≤ S8x8192x1.size a
  hwx1_1 : ∀ i : grid1.Coords, EltTy.bits .f32 = 32 ∨ (Rect.block (s := S8x8192x1) S1x8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192x64.size a ≤ S8x8192x64.size a
  hwx1_2 : ∀ i : grid1.Coords, EltTy.bits .f32 = 32 ∨ (Rect.block (s := S8x8192x64) S1x8192x64.size (cc1_transform_2 i) (hinb1_2 i)).WholeWords (EltTy.packing .f32)

variable [Facts₀]

def gather_S8x8192x64_S2097152x2_S2097152x64_1_01_n_n_01_1_1164 : GatherDims S8x8192x64 S2097152x2 S2097152x64 where
  offsetDims := [1]
  collapsedSliceDims := [0, 1]
  operandBatchingDims := []
  startIndicesBatchingDims := []
  startIndexMap := [0, 1]
  indexVectorDim := 1
  sliceSizes := ![1, 1, 64]
  wf := gather_S8x8192x64_S2097152x2_S2097152x64_1_01_n_n_01_1_1164_wf
def gather_S8x8192_S2097152x2_S2097152_n_01_n_n_01_1_11 : GatherDims S8x8192 S2097152x2 S2097152 where
  offsetDims := []
  collapsedSliceDims := [0, 1]
  operandBatchingDims := []
  startIndicesBatchingDims := []
  startIndexMap := [0, 1]
  indexVectorDim := 1
  sliceSizes := ![1, 1]
  wf := gather_S8x8192_S2097152x2_S2097152_n_01_n_n_01_1_11_wf
def scatter_S65536x64_S2097152x1_S2097152x64_1_0_0_1 : ScatterDims S65536x64 S2097152x1 S2097152x64 where
  updateWindowDims := [1]
  insertedWindowDims := [0]
  scatterDimsToOperandDims := [0]
  indexVectorDim := 1
  wf := scatter_S65536x64_S2097152x1_S2097152x64_1_0_0_1_wf

abbrev win0_0 : Pipeline.Window sig grid0 :=
  Pipeline.Window.ofSpec (Memref.whole main_v14) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S1x8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2097152 : Shape := ⟨1, ![2097152]⟩
abbrev S8x8192x64 : Shape := ⟨3, ![8, 8192, 64]⟩
abbrev S8x8192 : Shape := ⟨2, ![8, 8192]⟩
abbrev S8x8192x1 : Shape := ⟨3, ![8, 8192, 1]⟩
abbrev S_ : Shape := ⟨0, ![]⟩
abbrev S2097152x1 : Shape := ⟨2, ![2097152, 1]⟩
abbrev S2097152x2 : Shape := ⟨2, ![2097152, 2]⟩
abbrev S2097152x64 : Shape := ⟨2, ![2097152, 64]⟩
abbrev S65536x64 : Shape := ⟨2, ![65536, 64]⟩

abbrev nBuf : Space → Nat
  | .hbm => 49
  | .vmem => 0
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S2097152, .i32⟩
  | .hbm, ⟨3, _⟩ => ⟨S2097152, .f32⟩
  | .hbm, ⟨4, _⟩ => ⟨S8x8192x64, .f32⟩
  | .hbm, ⟨5, _⟩ => ⟨S8x8192, .i1⟩
  | .hbm, ⟨6, _⟩ => ⟨S8x8192, .i1⟩
  | .hbm, ⟨7, _⟩ => ⟨S8x8192x1, .i1⟩
  | .hbm, ⟨8, _⟩ => ⟨S_, .f32⟩
  | .hbm, ⟨9, _⟩ => ⟨S_, .f32⟩
  | .hbm, ⟨10, _⟩ => ⟨S8x8192x64, .i1⟩
  | .hbm, ⟨11, _⟩ => ⟨S8x8192x64, .f32⟩
  | .hbm, ⟨12, _⟩ => ⟨S8x8192x64, .f32⟩
  | .hbm, ⟨13, _⟩ => ⟨S2097152x1, .f32⟩
  | .hbm, ⟨14, _⟩ => ⟨S_, .i32⟩
  | .hbm, ⟨15, _⟩ => ⟨S2097152, .i32⟩
  | .hbm, ⟨16, _⟩ => ⟨S2097152, .i1⟩
  | .hbm, ⟨17, _⟩ => ⟨S_, .i32⟩
  | .hbm, ⟨18, _⟩ => ⟨S2097152, .i32⟩
  | .hbm, ⟨19, _⟩ => ⟨S2097152, .i32⟩
  | .hbm, ⟨20, _⟩ => ⟨S2097152, .i32⟩
  | .hbm, ⟨21, _⟩ => ⟨S_, .i32⟩
  | .hbm, ⟨22, _⟩ => ⟨S2097152, .i32⟩
  | .hbm, ⟨23, _⟩ => ⟨S2097152, .i1⟩
  | .hbm, ⟨24, _⟩ => ⟨S_, .i32⟩
  | .hbm, ⟨25, _⟩ => ⟨S2097152, .i32⟩
  | .hbm, ⟨26, _⟩ => ⟨S2097152, .i32⟩
  | .hbm, ⟨27, _⟩ => ⟨S2097152, .i32⟩
  | .hbm, ⟨28, _⟩ => ⟨S2097152x1, .i32⟩
  | .hbm, ⟨29, _⟩ => ⟨S2097152x1, .i32⟩
  | .hbm, ⟨30, _⟩ => ⟨S2097152x2, .i32⟩
  | .hbm, ⟨31, _⟩ => ⟨S2097152x64, .f32⟩
  | .hbm, ⟨32, _⟩ => ⟨S2097152x64, .f32⟩
  | .hbm, ⟨33, _⟩ => ⟨S2097152x64, .f32⟩
  | .hbm, ⟨34, _⟩ => ⟨S_, .i32⟩
  | .hbm, ⟨35, _⟩ => ⟨S2097152, .i32⟩
  | .hbm, ⟨36, _⟩ => ⟨S2097152, .i32⟩
  | .hbm, ⟨37, _⟩ => ⟨S2097152, .i32⟩
  | .hbm, ⟨38, _⟩ => ⟨S_, .f32⟩
  | .hbm, ⟨39, _⟩ => ⟨S65536x64, .f32⟩
  | .hbm, ⟨40, _⟩ => ⟨S2097152x1, .i32⟩
  | .hbm, ⟨41, _⟩ => ⟨S65536x64, .f32⟩
  | .hbm, ⟨42, _⟩ => ⟨S8x8192x64, .f32⟩
  | .hbm, ⟨43, _⟩ => ⟨S8x8192x1, .i1⟩
  | .hbm, ⟨44, _⟩ => ⟨S_, .f32⟩
  | .hbm, ⟨45, _⟩ => ⟨S_, .f32⟩
  | .hbm, ⟨46, _⟩ => ⟨S8x8192x64, .i1⟩
  | .hbm, ⟨47, _⟩ => ⟨S8x8192x64, .f32⟩
  | .hbm, ⟨48, _⟩ => ⟨S8x8192x64, .f32⟩
  | _, _ => ⟨S2097152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  bcast_S8x8192_S8x8192x1_0_1 : S8x8192.BroadcastsInDim S8x8192x1 (![0, 1] : Fin 2 → Fin S8x8192x1.rank)
  bcast_S8x8192x1_S8x8192x64_0_1_2 : S8x8192x1.BroadcastsInDim S8x8192x64 (![0, 1, 2] : Fin 3 → Fin S8x8192x64.rank)
  bcast_S_S8x8192x64 : S_.BroadcastsInDim S8x8192x64 (![] : Fin 0 → Fin S8x8192x64.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  concatenates_S2097152x1_S2097152x1_S2097152x2_d1 : Shape.Concatenates [S2097152x1, S2097152x1] S2097152x2 1
  bcast_S2097152x1_S2097152x64_0_1 : S2097152x1.BroadcastsInDim S2097152x64 (![0, 1] : Fin 2 → Fin S2097152x64.rank)
  bcast_S_S65536x64 : S_.BroadcastsInDim S65536x64 (![] : Fin 0 → Fin S65536x64.rank)
  shapeCasts_S65536x64_S8x8192x64 : S65536x64.ShapeCasts S8x8192x64
  gather_S8x8192x64_S2097152x2_S2097152x64_1_01_n_n_01_1_1164_wf : GatherDims.WF S8x8192x64 S2097152x2 S2097152x64 [1] [0, 1] [] [0, 1] [] 1 ![1, 1, 64]
  scatter_S65536x64_S2097152x1_S2097152x64_1_0_0_1_wf : ScatterDims.WF S65536x64 S2097152x1 S2097152x64 [1] [0] [0] 1

variable [Facts₀]

def gather_S8x8192x64_S2097152x2_S2097152x64_1_01_n_n_01_1_1164 : GatherDims S8x8192x64 S2097152x2 S2097152x64 where
  offsetDims := [1]
  collapsedSliceDims := [0, 1]
  operandBatchingDims := []
  startIndicesBatchingDims := []
  startIndexMap := [0, 1]
  indexVectorDim := 1
  sliceSizes := ![1, 1, 64]
  wf := gather_S8x8192x64_S2097152x2_S2097152x64_1_01_n_n_01_1_1164_wf
def scatter_S65536x64_S2097152x1_S2097152x64_1_0_0_1 : ScatterDims S65536x64 S2097152x1 S2097152x64 where
  updateWindowDims := [1]
  insertedWindowDims := [0]
  scatterDimsToOperandDims := [0]
  indexVectorDim := 1
  wf := scatter_S65536x64_S2097152x1_S2097152x64_1_0_0_1_wf

class Facts : Prop extends Facts₀ where

variable [Facts]
-- ==== Proof.Region0.lean ====
/-
  The first region, read as a value: after its 256 grid points the message array holds every gathered row scaled by its
  edge's one scale entry.

  Point `t` fetches rows `8192·t … 8192·t + 8191` of the gathered rows `gx : [2097152, 64]` and of the scale column
  `sc : [2097152, 1]`, multiplies each row by its scale entry spread over the 64 lanes, and writes the block back to the
  same rows of the result. The blocks tile the result, so the result array is `gx[e, k] · sc[e, 0]` at every `(e, k)`.
-/
import proofs.«136574_j42666205119405_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ScaleRegion

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Every row of `gx` times its row's one entry of `sc`. -/
def scaleRows (gx : S2097152x64.Idx → EReal) (sc : S2097152x1.Idx → EReal) : S2097152x64.Idx → EReal :=
  fun i => gx i * sc (ix2 (⟨(i 0).val, idx2_lt0 i⟩ : Fin 2097152) (0 : Fin 1))

/-- The gathered rows as the region finds them, at their literal type. -/
abbrev rowsIn (c : Dev nD) : S2097152x64.Idx → EReal := V c main_v14
/-- The scale column as the region finds it, at its literal type. -/
abbrev scaleIn (c : Dev nD) : S2097152x1.Idx → EReal := V c main_v30

/-- The body's product at row `p`, lane `q` of a block: the row entry times the row's scale entry. -/
theorem pay_apply (x0 : Vec Ideal S8192x64 .f32) (x1 : Vec Ideal S8192x1 .f32) (p : Fin 8192) (q : Fin 64) :
    (k0_pay1 x0 x1 : FVec Ideal S8192x64 .f32) (ix2 p q) = x0 (ix2 p q) * x1 (ix2 p (0 : Fin 1)) := by
  unfold k0_pay1
  rw [mulf_apply, shapeCast_self, shapeCast_self, shapeCast_self]
  refine congrArg (x0 (ix2 p q) * ·) ?_
  exact broadcastTo_apply x1 _ (ix2 p q) (ix2 p (0 : Fin 1)) (fun a => match a with
    | ⟨0, _⟩ => by show p.val = if (8192 : Nat) = 1 then 0 else p.val; rw [if_neg (by decide)]
    | ⟨1, _⟩ => by show (0 : Nat) = if (1 : Nat) = 1 then 0 else q.val; rw [if_pos rfl])

/-- The printed index maps over the grid: every window's block index is the point's number on the row axis and 0 on
    the lane axis. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `scaleRows` of the two input arrays as the region finds them. -/
theorem flushed_eq (c : Dev nD) (t : Fin cfg0.N) :
    (dat0 V c).flushed 2 t = ((cfg0.win 2).blk t).view.read (Elt Ideal) (scaleRows (rowsIn V c) (scaleIn V c)) := by
  show (cfg0.win 2).cut (grid0.coords t) ((dat0 V c).after 2 t) = _
  rw [after0_2]
  unfold out0_2
  rw [View.canon_unit_zero hz]
  simp only [View.ld_unit_zero (S := S8192x64) hz, View.ld_unit_zero (S := S8192x1) hz]
  obtain ⟨e0, e1, e2, e3, e4, e5⟩ := idx_facts t
  funext j
  obtain ⟨p, q, rfl⟩ : ∃ (p : Fin 8192) (q : Fin 64), j = ix2 p q := ⟨j 0, j 1, eq_ix2 j⟩
  refine (pay_apply (iblk0 V c 0 t) (iblk0 V c 1 t) p q).trans ?_
  show rowsIn V c (((cfg0.win 0).blk t).view.emb (ix2 p q)) * scaleIn V c (((cfg0.win 1).blk t).view.emb (ix2 p (0 : Fin 1)))
    = scaleRows (rowsIn V c) (scaleIn V c) (((cfg0.win 2).blk t).view.emb (ix2 p q))
  unfold scaleRows
  refine congrArg₂ (· * ·) ?_ ?_
  · refine congrArg (rowsIn V c) (funext fun a => Fin.ext ?_)
    match a with
    | ⟨0, _⟩ => show win0_0.index t (0 : Fin 2) * 8192 + 1 * p.val = win0_2.index t (0 : Fin 2) * 8192 + 1 * p.val; omega
    | ⟨1, _⟩ => show win0_0.index t (1 : Fin 2) * 64 + 1 * q.val = win0_2.index t (1 : Fin 2) * 64 + 1 * q.val; omega
  · refine congrArg (scaleIn V c) (funext fun a => Fin.ext ?_)
    match a with
    | ⟨0, _⟩ => show win0_1.index t (0 : Fin 2) * 8192 + 1 * p.val = win0_2.index t (0 : Fin 2) * 8192 + 1 * p.val; omega
    | ⟨1, _⟩ => show win0_1.index t (1 : Fin 2) * 1 + 1 * 0 = 0; omega

/-- An index of the array is in point `t`'s block iff each coordinate is in the block's range on its axis. -/
theorem mem_blk (t : Fin cfg0.N) (i : S2097152x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v31).slice (win0_2.rect t)).set ↔ _
  rw [View.set_slice_whole, Rect.mem_set_unit]
  exact Iff.rfl

/-- Every entry `(e, k)` of the result is in the block of point `e / 8192`. -/
theorem cover (i : S2097152x64.Idx) :
    ∃ t : Fin cfg0.N, (cfg0.win 2).flush t = true ∧ i ∈ ((cfg0.win 2).blk t).view.set := by
  have hi0 : (i 0).val < 2097152 := (i 0).isLt
  have hi1 : (i 1).val < 64 := (i 1).isLt
  have hN : cfg0.N = 256 := N_0
  have ht : (i 0).val / 8192 < cfg0.N := by rw [hN]; omega
  obtain ⟨-, -, -, -, e4, e5⟩ := idx_facts ⟨(i 0).val / 8192, ht⟩
  refine ⟨⟨(i 0).val / 8192, ht⟩, flush0_2 _, ?_⟩
  rw [mem_blk]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    rw [e4]; show (i 0).val / 8192 * 8192 ≤ (i 0).val ∧ (i 0).val < (i 0).val / 8192 * 8192 + 8192; omega
  | ⟨1, _⟩ =>
    show win0_2.index ⟨(i 0).val / 8192, ht⟩ (1 : Fin 2) * 64 ≤ (i 1).val
      ∧ (i 1).val < win0_2.index ⟨(i 0).val / 8192, ht⟩ (1 : Fin 2) * 64 + 64
    rw [e5]; omega

/-- THE MESSAGE ARRAY after the region: every gathered row times its edge's scale entry. -/
theorem final (c : Dev nD) : (dat0 V c).arrAt 2 cfg0.N = scaleRows (rowsIn V c) (scaleIn V c) :=
  (dat0 V c).arrAt_eq_of_cover 2 (scaleRows (rowsIn V c) (scaleIn V c)) (fun t _ => flushed_eq V c t) cover

end Cert.KernelIdeal.ScaleRegion

end
-- ==== Proof.Region1.lean ====
/-
  The second region, read as a value: after its 8 grid points the result holds every entry of the summed messages
  times its row's mask number.

  Point `t` fetches batch `t` of `y : [8, 8192, 64]` and of the mask column `mk : [8, 8192, 1]`, multiplies each row by
  its mask entry spread over the 64 lanes, and writes the block back to batch `t` of the result. The blocks tile the
  result, so the result array is `y[b, r, k] · mk[b, r, 0]` at every `(b, r, k)`.
-/
import proofs.«136574_j42666205119405_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MaskRegion

open Cert.KernelIdeal Cert.KernelIdeal.Gen

variable (V : (c : Dev nD) → (b : Ref sig .tc) → Buf (Elt Ideal) ((c : Thread nD τ).loc b))

theorem hz : (![0, 0, 0] : Fin 3 → Nat) = fun _ => 0 := funext fun a => by fin_cases a <;> rfl

/-- Every row of `y` times its row's one entry of `mk`. -/
def maskRows (y : S8x8192x64.Idx → EReal) (mk : S8x8192x1.Idx → EReal) : S8x8192x64.Idx → EReal :=
  fun i => y i * mk (ix3 (⟨(i 0).val, (i 0).isLt⟩ : Fin 8) (⟨(i 1).val, (i 1).isLt⟩ : Fin 8192) (0 : Fin 1))

/-- The summed messages as the region finds them, at their literal type. -/
abbrev sumsIn (c : Dev nD) : S8x8192x64.Idx → EReal := V c main_v38
/-- The mask column as the region finds it, at its literal type. -/
abbrev maskIn (c : Dev nD) : S8x8192x1.Idx → EReal := V c main_v40

/-- The body's product at row `p`, lane `q` of a block: the row entry times the row's mask entry. -/
theorem pay_apply (x0 : Vec Ideal S1x8192x64 .f32) (x1 : Vec Ideal S1x8192x1 .f32) (p : Fin 8192) (q : Fin 64) :
    (k1_pay1 x0 x1 : FVec Ideal S1x8192x64 .f32) (ix3 (0 : Fin 1) p q)
      = x0 (ix3 (0 : Fin 1) p q) * x1 (ix3 (0 : Fin 1) p (0 : Fin 1)) := by
  unfold k1_pay1
  rw [mulf_apply, shapeCast_self, shapeCast_self, shapeCast_self]
  refine congrArg (x0 (ix3 (0 : Fin 1) p q) * ·) ?_
  exact broadcastTo_apply x1 _ (ix3 (0 : Fin 1) p q) (ix3 (0 : Fin 1) p (0 : Fin 1)) (fun a => match a with
    | ⟨0, _⟩ => by show (0 : Nat) = if (1 : Nat) = 1 then 0 else (0 : Fin 1).val; rw [if_pos rfl]
    | ⟨1, _⟩ => by show p.val = if (8192 : Nat) = 1 then 0 else p.val; rw [if_neg (by decide)]
    | ⟨2, _⟩ => by show (0 : Nat) = if (1 : Nat) = 1 then 0 else q.val; rw [if_pos rfl])

/-- The printed index maps over the grid: every window's block index is the point's number on the batch axis and 0 on
    the row and lane axes. -/
theorem idx_facts : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- WHAT POINT `t` WRITES BACK is block `t` of `maskRows` of the two input arrays as the region finds them. -/
theorem flushed_eq (c : Dev nD) (t : Fin cfg1.N) :
    (dat1 V c).flushed 2 t = ((cfg1.win 2).blk t).view.read (Elt Ideal) (maskRows (sumsIn V c) (maskIn V c)) := by
  show (cfg1.win 2).cut (grid1.coords t) ((dat1 V c).after 2 t) = _
  rw [after1_2]
  unfold out1_2
  rw [View.canon_unit_zero hz]
  simp only [View.ld_unit_zero (S := S1x8192x64) hz, View.ld_unit_zero (S := S1x8192x1) hz]
  obtain ⟨e0, e1, e2, e3, e4, e5, e6, e7, e8⟩ := idx_facts t
  funext j
  obtain ⟨z, p, q, rfl⟩ : ∃ (z : Fin 1) (p : Fin 8192) (q : Fin 64), j = ix3 z p q := ⟨j 0, j 1, j 2, eq_ix3 j⟩
  obtain rfl : z = 0 := Subsingleton.elim _ _
  refine (pay_apply (iblk1 V c 0 t) (iblk1 V c 1 t) p q).trans ?_
  show sumsIn V c (((cfg1.win 0).blk t).view.emb (ix3 (0 : Fin 1) p q))
      * maskIn V c (((cfg1.win 1).blk t).view.emb (ix3 (0 : Fin 1) p (0 : Fin 1)))
    = maskRows (sumsIn V c) (maskIn V c) (((cfg1.win 2).blk t).view.emb (ix3 (0 : Fin 1) p q))
  unfold maskRows
  refine congrArg₂ (· * ·) ?_ ?_
  · refine congrArg (sumsIn V c) (funext fun a => Fin.ext ?_)
    match a with
    | ⟨0, _⟩ => show win1_0.index t (0 : Fin 3) * 1 + 1 * 0 = win1_2.index t (0 : Fin 3) * 1 + 1 * 0; omega
    | ⟨1, _⟩ => show win1_0.index t (1 : Fin 3) * 8192 + 1 * p.val = win1_2.index t (1 : Fin 3) * 8192 + 1 * p.val; omega
    | ⟨2, _⟩ => show win1_0.index t (2 : Fin 3) * 64 + 1 * q.val = win1_2.index t (2 : Fin 3) * 64 + 1 * q.val; omega
  · refine congrArg (maskIn V c) (funext fun a => Fin.ext ?_)
    match a with
    | ⟨0, _⟩ => show win1_1.index t (0 : Fin 3) * 1 + 1 * 0 = win1_2.index t (0 : Fin 3) * 1 + 1 * 0; omega
    | ⟨1, _⟩ => show win1_1.index t (1 : Fin 3) * 8192 + 1 * p.val = win1_2.index t (1 : Fin 3) * 8192 + 1 * p.val; omega
    | ⟨2, _⟩ => show win1_1.index t (2 : Fin 3) * 1 + 1 * 0 = 0; omega

/-- An index of the array is in point `t`'s block iff each coordinate is in the block's range on its axis. -/
theorem mem_blk (t : Fin cfg1.N) (i : S8x8192x64.Idx) :
    i ∈ ((cfg1.win 2).blk t).view.set ↔ ∀ a : Fin 3, win1_2.index t a * S1x8192x64.size a ≤ (i a).val
      ∧ (i a).val < win1_2.index t a * S1x8192x64.size a + S1x8192x64.size a := by
  show i ∈ ((View.whole main_v41).slice (win1_2.rect t)).set ↔ _
  rw [View.set_slice_whole, Rect.mem_set_unit]
  exact Iff.rfl

/-- Every entry `(b, r, k)` of the result is in the block of point `b`. -/
theorem cover (i : S8x8192x64.Idx) :
    ∃ t : Fin cfg1.N, (cfg1.win 2).flush t = true ∧ i ∈ ((cfg1.win 2).blk t).view.set := by
  have hi0 : (i 0).val < 8 := (i 0).isLt
  have hi1 : (i 1).val < 8192 := (i 1).isLt
  have hi2 : (i 2).val < 64 := (i 2).isLt
  have hN : cfg1.N = 8 := N_1
  have ht : (i 0).val < cfg1.N := by rw [hN]; omega
  obtain ⟨-, -, -, -, -, -, e6, e7, e8⟩ := idx_facts ⟨(i 0).val, ht⟩
  refine ⟨⟨(i 0).val, ht⟩, flush1_2 _, ?_⟩
  rw [mem_blk]
  intro a
  match a with
  | ⟨0, _⟩ =>
    show win1_2.index ⟨(i 0).val, ht⟩ (0 : Fin 3) * 1 ≤ (i 0).val
      ∧ (i 0).val < win1_2.index ⟨(i 0).val, ht⟩ (0 : Fin 3) * 1 + 1
    rw [e6]; show (i 0).val * 1 ≤ (i 0).val ∧ (i 0).val < (i 0).val * 1 + 1; omega
  | ⟨1, _⟩ =>
    show win1_2.index ⟨(i 0).val, ht⟩ (1 : Fin 3) * 8192 ≤ (i 1).val
      ∧ (i 1).val < win1_2.index ⟨(i 0).val, ht⟩ (1 : Fin 3) * 8192 + 8192
    rw [e7]; omega
  | ⟨2, _⟩ =>
    show win1_2.index ⟨(i 0).val, ht⟩ (2 : Fin 3) * 64 ≤ (i 2).val
      ∧ (i 2).val < win1_2.index ⟨(i 0).val, ht⟩ (2 : Fin 3) * 64 + 64
    rw [e8]; omega

/-- THE RESULT ARRAY after the region: every summed-message entry times its row's mask number. -/
theorem final (c : Dev nD) : (dat1 V c).arrAt 2 cfg1.N = maskRows (sumsIn V c) (maskIn V c) :=
  (dat1 V c).arrAt_eq_of_cover 2 (maskRows (sumsIn V c) (maskIn V c)) (fun t _ => flushed_eq V c t) cover

end Cert.KernelIdeal.MaskRegion

end
-- ==== Proof.KernelValue.lean ====
/-
  The idealized kernel's result as ONE function of the seven argument arrays.

  The host lines before the first region build the start indices (each batch and column index, a negative one moved up
  by its axis' extent, side by side as `[2097152, 2]`), gather the rows of `X` and the cells of the mask-as-numbers at
  them, and multiply the edge weights by the gathered mask numbers; the first region scales each gathered row by that
  product; the host lines between the regions add the scaled rows up by segment `batch · 8192 + row` into `[65536, 64]`
  and view the sums as `[8, 8192, 64]`; the second region multiplies each summed row by the target mask's number.
  Each region's array is read by its blocks (the two region modules), each host stretch by its operations' results.
-/
import proofs.«136574_j42666205119405_1_alg».proof.Proof.KernelRun
import proofs.«136574_j42666205119405_1_alg».proof.Proof.Region0
import proofs.«136574_j42666205119405_1_alg».proof.Proof.Region1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Valued

open Cert.KernelIdeal Cert.KernelIdeal.Gen

/-- The start indices `[2097152, 2]`: the batch index and the column index of every edge, a negative one moved up by its
    axis' extent, side by side. -/
def startIdx (x0 x2 : IVec S2097152 32) : IVec S2097152x2 32 :=
  concatenate S2097152x2 1
    [⟨S2097152x1, broadcastInDim S2097152x1 ![0] bcast_S2097152_S2097152x1_0
        (select (cmpi .slt x0 (broadcastInDim S2097152 ![] bcast_S_S2097152 (constantI S_ 32 0#32)))
          (addi x0 (broadcastInDim S2097152 ![] bcast_S_S2097152 (constantI S_ 32 8#32))) x0)⟩,
     ⟨S2097152x1, broadcastInDim S2097152x1 ![0] bcast_S2097152_S2097152x1_0
        (select (cmpi .slt x2 (broadcastInDim S2097152 ![] bcast_S_S2097152 (constantI S_ 32 0#32)))
          (addi x2 (broadcastInDim S2097152 ![] bcast_S_S2097152 (constantI S_ 32 8192#32))) x2)⟩]
    concatenates_S2097152x1_S2097152x1_S2097152x2_d1

/-- The segment of every edge, `batch · 8192 + row`, as a column. -/
def segIdx (x0 x1 : IVec S2097152 32) : IVec S2097152x1 32 :=
  broadcastInDim S2097152x1 ![0] bcast_S2097152_S2097152x1_0
    (addi (muli x0 (broadcastInDim S2097152 ![] bcast_S_S2097152 (constantI S_ 32 8192#32))) x1)

/-- The scaled rows the first region leaves: each gathered row of `X` times (edge weight · gathered mask number). -/
def messages (x0 x2 : IVec S2097152 32) (x3 : FVec Ideal S2097152 .f32) (x4 : FVec Ideal S8x8192x64 .f32)
    (x5 : IVec S8x8192 1) : FVec Ideal S2097152x64 .f32 :=
  ScaleRegion.scaleRows
    (Host.gather gather_S8x8192x64_S2097152x2_S2097152x64_1_01_n_n_01_1_1164 x4 (startIdx x0 x2))
    (shapeCast S2097152x1
      (mulf x3 (Host.gather gather_S8x8192_S2097152x2_S2097152_n_01_n_n_01_1_11 (uitofp (F := Ideal) .f32 x5) (startIdx x0 x2)))
      shapeCasts_S2097152_S2097152x1)

/-- The rows added up by segment, viewed as `[8, 8192, 64]`. -/
def segmentSums (x0 x1 : IVec S2097152 32) (u : FVec Ideal S2097152x64 .f32) : FVec Ideal S8x8192x64 .f32 :=
  shapeCast S8x8192x64
    (Host.scatterAdd (F := Ideal) scatter_S65536x64_S2097152x1_S2097152x64_1_0_0_1
      (broadcastInDim S65536x64 ![] bcast_S_S65536x64 (constant (F := Ideal) S_ .f32 0x00000000#32)) (segIdx x0 x1) u)
    shapeCasts_S65536x64_S8x8192x64

/-- THE KERNEL'S RESULT of the seven argument arrays. -/
def result (x0 x1 x2 : IVec S2097152 32) (x3 : FVec Ideal S2097152 .f32) (x4 : FVec Ideal S8x8192x64 .f32)
    (x5 x6 : IVec S8x8192 1) : FVec Ideal S8x8192x64 .f32 :=
  MaskRegion.maskRows (segmentSums x0 x1 (messages x0 x2 x3 x4 x5))
    (shapeCast S8x8192x1 (uitofp (F := Ideal) .f32 x6) shapeCasts_S8x8192_S8x8192x1)

variable (m : (ℓ : Loc nD τ sig) → Buf (Elt Ideal) ℓ) (ρ : Dev nD → PrngReg)

/-! ## The first host stretch: what the first region finds -/

set_option maxHeartbeats 2000000 in
/-- The gathered rows. -/
theorem rows_in (c : Dev nD) : ScaleRegion.rowsIn (V1 m ρ) c
    = Host.gather gather_S8x8192x64_S2097152x2_S2097152x64_1_01_n_n_01_1_1164 (m ((c.tc : Thread nD τ).loc main_arg4))
        (startIdx (m ((c.tc : Thread nD τ).loc main_arg0)) (m ((c.tc : Thread nD τ).loc main_arg2))) := by
  show StableHlo.after hostOps0 (W0 m ρ c) (Proc.devRef .tc main_v14) = _
  after_results_simp
  rfl

set_option maxHeartbeats 2000000 in
/-- The scale column. -/
theorem scale_in (c : Dev nD) : ScaleRegion.scaleIn (V1 m ρ) c
    = shapeCast S2097152x1
        (mulf (m ((c.tc : Thread nD τ).loc main_arg3))
          (Host.gather gather_S8x8192_S2097152x2_S2097152_n_01_n_n_01_1_11 (uitofp (F := Ideal) .f32 (m ((c.tc : Thread nD τ).loc main_arg5)))
            (startIdx (m ((c.tc : Thread nD τ).loc main_arg0)) (m ((c.tc : Thread nD τ).loc main_arg2)))))
        shapeCasts_S2097152_S2097152x1 := by
  show StableHlo.after hostOps0 (W0 m ρ c) (Proc.devRef .tc main_v30) = _
  after_results_simp
  rfl

/-- What the first region leaves in the message array. -/
theorem messages_out (c : Dev nD) : W2 m ρ c (Proc.devRef .tc main_v31)
    = messages (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5)) := by
  rw [show W2 m ρ c (Proc.devRef .tc main_v31) = (dat0 (V1 m ρ) c).arrAt 2 cfg0.N from W2_arr m ρ c 2,
    ScaleRegion.final, rows_in, scale_in]
  rfl

/-! ## The arguments as the second host stretch finds them -/

theorem arg0_mid (c : Dev nD) : W2 m ρ c (Proc.devRef .tc main_arg0) = m ((c.tc : Thread nD τ).loc main_arg0) := by
  rw [W2_of_ne m ρ c main_arg0 (by decide)]
  show StableHlo.after hostOps0 (W0 m ρ c) (Proc.devRef .tc main_arg0) = _
  after_results
theorem arg1_mid (c : Dev nD) : W2 m ρ c (Proc.devRef .tc main_arg1) = m ((c.tc : Thread nD τ).loc main_arg1) := by
  rw [W2_of_ne m ρ c main_arg1 (by decide)]
  show StableHlo.after hostOps0 (W0 m ρ c) (Proc.devRef .tc main_arg1) = _
  after_results
theorem arg6_mid (c : Dev nD) : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results

/-! ## The second host stretch: what the second region finds -/

theorem sums_in (c : Dev nD) : MaskRegion.sumsIn (V3 m ρ) c
    = segmentSums (m ((c.tc : Thread nD τ).loc main_arg0)) (m ((c.tc : Thread nD τ).loc main_arg1))
        (W2 m ρ c (Proc.devRef .tc main_v31)) := by
  show StableHlo.after hostOps1 (W2 m ρ c) (Proc.devRef .tc main_v38) = _
  after_results
  rw [arg0_mid, arg1_mid]
  rfl

theorem mask_in (c : Dev nD) : MaskRegion.maskIn (V3 m ρ) c
    = shapeCast S8x8192x1 (uitofp (F := Ideal) .f32 (m ((c.tc : Thread nD τ).loc main_arg6))) shapeCasts_S8x8192_S8x8192x1 := by
  show StableHlo.after hostOps1 (W2 m ρ c) (Proc.devRef .tc main_v40) = _
  after_results
  rw [arg6_mid]
  rfl

/-! ## The result -/

/-- After the second region the result buffer holds `result` of the arguments. -/
theorem result_out (c : Dev nD) : W4 m ρ c (Proc.devRef .tc main_v41)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  rw [show W4 m ρ c (Proc.devRef .tc main_v41) = (dat1 (V3 m ρ) c).arrAt 2 cfg1.N from W4_arr m ρ c 2,
    MaskRegion.final, sums_in, mask_in, messages_out]
  rfl

/-- THE RUN, READ: every weakly fair execution of the idealized kernel terminates with the result array at `result` of the
    arguments and the arguments unchanged. -/
theorem run : θ_run defs (onTc (τ := τ) (main (F := Ideal))) ⟨m, fun _ => 0, ρ⟩ (fun r => ∀ c : Dev nD,
      r.2.mem ((c.tc : Thread nD τ).loc main_v41)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_out m ρ c), (h c).2⟩) (Named.run_named m ρ)

end Cert.KernelIdeal.Valued

end
-- ==== Proof.LibGatherPair.lean ====
/-
  A two-index gather read at an entry, generic in the sizes and the element type.

  `x[i, j]` of an array `x : [A, B, C]` at two integer vectors `i, j : [n]` lowers to a `stablehlo.gather` whose start
  indices are the two vectors side by side, `[n, 2]`, with both leading axes collapsed (slice sizes `[1, 1, C]`): result
  entry `(e, k)` is `x` at row `(i[e], j[e])`, each start read as a signed integer and clamped into its axis, and at
  column `k` (`gather_rows_apply`). The same indexing of a matrix `y : [A, B]` (slice sizes `[1, 1]`) gives the vector
  whose entry `e` is `y` at that same clamped position (`gather_cells_apply`). Both positions are spelt by the ONE pair
  `startRow` / `startCol`, so a proof can carry a row of `x` and the cell of `y` at the same place side by side.
-/
import Idealize.ShloMosaic.Lib.ValueIdx

noncomputable section

namespace Cert.LibGatherPair

open Idealize.ShloMosaic Idealize.ShloMosaic.ValueIdx

variable {α : Type}

/-- The first start index of entry `e`, read signed and clamped into `[0, A − 1]`. -/
def startRow (A : Nat) {n w : Nat} (idx : IVec ⟨2, ![n, 2]⟩ w) (e : Fin n) (hA : 0 < A) : Fin A :=
  ⟨min (idx (ix2 e (0 : Fin 2))).toInt.toNat (A - 1), by omega⟩

/-- The second start index of entry `e`, read signed and clamped into `[0, B − 1]`. -/
def startCol (B : Nat) {n w : Nat} (idx : IVec ⟨2, ![n, 2]⟩ w) (e : Fin n) (hB : 0 < B) : Fin B :=
  ⟨min (idx (ix2 e (1 : Fin 2))).toInt.toNat (B - 1), by omega⟩

/-- The dimension numbers of `x[i, j]` for `x : [A, B, C]` and start indices `[n, 2]`: result `[n, C]`. -/
abbrev rowsDims (A B C n : Nat)
    (wf : GatherDims.WF ⟨3, ![A, B, C]⟩ ⟨2, ![n, 2]⟩ ⟨2, ![n, C]⟩ [1] [0, 1] [] [0, 1] [] 1 ![1, 1, C]) :
    GatherDims ⟨3, ![A, B, C]⟩ ⟨2, ![n, 2]⟩ ⟨2, ![n, C]⟩ where
  offsetDims := [1]
  collapsedSliceDims := [0, 1]
  operandBatchingDims := []
  startIndicesBatchingDims := []
  startIndexMap := [0, 1]
  indexVectorDim := 1
  sliceSizes := ![1, 1, C]
  wf := wf

/-- The dimension numbers of `y[i, j]` for `y : [A, B]` and start indices `[n, 2]`: result `[n]`. -/
abbrev cellsDims (A B n : Nat)
    (wf : GatherDims.WF ⟨2, ![A, B]⟩ ⟨2, ![n, 2]⟩ ⟨1, ![n]⟩ [] [0, 1] [] [0, 1] [] 1 ![1, 1]) :
    GatherDims ⟨2, ![A, B]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

/-- THE ROW GATHER READ AT `(e, k)`: the operand at the clamped start pair of entry `e`, column `k`. -/
theorem gather_rows_apply {A B C n w : Nat} (hA : 0 < A) (hB : 0 < B)
    (wf : GatherDims.WF ⟨3, ![A, B, C]⟩ ⟨2, ![n, 2]⟩ ⟨2, ![n, C]⟩ [1] [0, 1] [] [0, 1] [] 1 ![1, 1, C])
    (x : (⟨3, ![A, B, C]⟩ : Shape).Idx → α) (idx : IVec ⟨2, ![n, 2]⟩ w) (e : Fin n) (k : Fin C) :
    Host.gather (rowsDims A B C n wf) x idx (ix2 e k) = x (ix3 (startRow A idx e hA) (startCol B idx e hB) k) := by
  unfold Host.gather
  refine congrArg x (funext fun a => Fin.ext ?_)
  match a with
  | ⟨0, _⟩ =>
    show (rowsDims A B C n wf).start (ix2 e k) idx 0 + (rowsDims A B C n wf).batchCoord (ix2 e k) 0
      + (rowsDims A B C n wf).offCoord (ix2 e k) 0 = _
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 3) ∈ (rowsDims A B C n wf).startIndexMap from List.mem_cons_self ..)]
    have hsi : (rowsDims A B C n wf).siIdx (ix2 e k) ⟨List.idxOf (0 : Fin 3) (rowsDims A B C n wf).startIndexMap,
        List.idxOf_lt_length_iff.2 (List.mem_cons_self ..)⟩ = ix2 e (0 : Fin 2) := by
      funext b; refine Fin.ext ?_
      match b with
      | ⟨0, _⟩ => rfl
      | ⟨1, _⟩ => rfl
    rw [hsi]
    rfl
  | ⟨1, _⟩ =>
    show (rowsDims A B C n wf).start (ix2 e k) idx 1 + (rowsDims A B C n wf).batchCoord (ix2 e k) 1
      + (rowsDims A B C n wf).offCoord (ix2 e k) 1 = _
    rw [GatherDims.batchCoord_eq_zero _ _ _ List.not_mem_nil,
      GatherDims.offCoord_eq_zero _ _ _ (fun h => ((GatherDims.mem_sKept _ _).mp h).1
        (List.mem_cons_of_mem _ (List.mem_cons_self ..)))]
    simp only [Nat.add_zero]
    unfold GatherDims.start
    rw [dif_pos (show (1 : Fin 3) ∈ (rowsDims A B C n wf).startIndexMap from List.mem_cons_of_mem _ (List.mem_cons_self ..))]
    have hsi : (rowsDims A B C n wf).siIdx (ix2 e k) ⟨List.idxOf (1 : Fin 3) (rowsDims A B C n wf).startIndexMap,
        List.idxOf_lt_length_iff.2 (List.mem_cons_of_mem _ (List.mem_cons_self ..))⟩ = ix2 e (1 : Fin 2) := by
      funext b; refine Fin.ext ?_
      match b with
      | ⟨0, _⟩ => rfl
      | ⟨1, _⟩ => rfl
    rw [hsi]
    rfl
  | ⟨2, _⟩ =>
    show (rowsDims A B C n wf).start (ix2 e k) idx 2 + (rowsDims A B C n wf).batchCoord (ix2 e k) 2
      + (rowsDims A B C n wf).offCoord (ix2 e k) 2 = k.val
    rw [GatherDims.batchCoord_eq_zero _ _ _ List.not_mem_nil]
    have h2 : ¬ (2 : Fin 3) ∈ ([0, 1] : List (Fin 3)) := by decide
    unfold GatherDims.start
    rw [dif_neg (show ¬ (2 : Fin 3) ∈ (rowsDims A B C n wf).startIndexMap from h2)]
    unfold GatherDims.offCoord
    rw [dif_pos ((GatherDims.mem_sKept _ _).mpr ⟨h2, List.not_mem_nil⟩)]
    simp only [Nat.zero_add]
    rfl

/-- THE CELL GATHER READ AT `e`: the operand at the clamped start pair of entry `e`. -/
theorem gather_cells_apply {A B n w : Nat} (hA : 0 < A) (hB : 0 < B)
    (wf : GatherDims.WF ⟨2, ![A, B]⟩ ⟨2, ![n, 2]⟩ ⟨1, ![n]⟩ [] [0, 1] [] [0, 1] [] 1 ![1, 1])
    (y : (⟨2, ![A, B]⟩ : Shape).Idx → α) (idx : IVec ⟨2, ![n, 2]⟩ w) (e : Fin n) :
    Host.gather (cellsDims A B n wf) y idx (ix1 e) = y (ix2 (startRow A idx e hA) (startCol B idx e hB)) := by
  unfold Host.gather
  refine congrArg y (funext fun a => Fin.ext ?_)
  match a with
  | ⟨0, _⟩ =>
    show (cellsDims A B n wf).start (ix1 e) idx 0 + (cellsDims A B n wf).batchCoord (ix1 e) 0
      + (cellsDims A B n wf).offCoord (ix1 e) 0 = _
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 2) ∈ (cellsDims A B n wf).startIndexMap from List.mem_cons_self ..)]
    have hsi : (cellsDims A B n wf).siIdx (ix1 e) ⟨List.idxOf (0 : Fin 2) (cellsDims A B n wf).startIndexMap,
        List.idxOf_lt_length_iff.2 (List.mem_cons_self ..)⟩ = ix2 e (0 : Fin 2) := by
      funext b; refine Fin.ext ?_
      match b with
      | ⟨0, _⟩ => rfl
      | ⟨1, _⟩ => rfl
    rw [hsi]
    rfl
  | ⟨1, _⟩ =>
    show (cellsDims A B n wf).start (ix1 e) idx 1 + (cellsDims A B n wf).batchCoord (ix1 e) 1
      + (cellsDims A B n wf).offCoord (ix1 e) 1 = _
    rw [GatherDims.batchCoord_eq_zero _ _ _ List.not_mem_nil,
      GatherDims.offCoord_eq_zero _ _ _ (fun h => ((GatherDims.mem_sKept _ _).mp h).1
        (List.mem_cons_of_mem _ (List.mem_cons_self ..)))]
    simp only [Nat.add_zero]
    unfold GatherDims.start
    rw [dif_pos (show (1 : Fin 2) ∈ (cellsDims A B n wf).startIndexMap from List.mem_cons_of_mem _ (List.mem_cons_self ..))]
    have hsi : (cellsDims A B n wf).siIdx (ix1 e) ⟨List.idxOf (1 : Fin 2) (cellsDims A B n wf).startIndexMap,
        List.idxOf_lt_length_iff.2 (List.mem_cons_of_mem _ (List.mem_cons_self ..))⟩ = ix2 e (1 : Fin 2) := by
      funext b; refine Fin.ext ?_
      match b with
      | ⟨0, _⟩ => rfl
      | ⟨1, _⟩ => rfl
    rw [hsi]
    rfl

end Cert.LibGatherPair

end
-- ==== Proof.MaskLaws.lean ====
/-
  The two scalar laws that join the kernel's arithmetic to the reference's, on the extended reals.

  A mask bit `b` enters the kernel as the number `0` or `1` (the bit converted to a float) and is MULTIPLIED in; the
  reference instead SELECTS between the value and the float zero. On the extended reals `x · 0 = 0` for every `x`
  (infinite ones included), and multiplication is commutative and has the unit `1`, so
    `x · (a · [b]) = a · (if b then x else 0)`   and   `y · [b] = if b then y else 0`
  hold for all extended reals `x`, `a`, `y`: no finiteness is used.
-/
import Idealize.ShloMosaic.PureOps.Ideal
import Idealize.ShloMosaic.PureOps.Ideal.Laws
import Idealize.ShloMosaic.Lib.ValueIdx

noncomputable section

namespace Cert.MaskLaws

open Idealize.ShloMosaic Idealize.ShloMosaic.ValueIdx

/-- The bit `0` converts to the extended real `0`. -/
theorem bit_zero : (FloatOps.uitofp (F := Ideal) .f32 (0#1 : BitVec 1) : EReal) = 0 := by
  show (((0#1 : BitVec 1).toNat : ℝ) : EReal) = 0
  simp

/-- The bit `1` converts to the extended real `1`. -/
theorem bit_one : (FloatOps.uitofp (F := Ideal) .f32 (1#1 : BitVec 1) : EReal) = 1 := by
  show (((1#1 : BitVec 1).toNat : ℝ) : EReal) = 1
  simp

/-- The float zero word is the extended real `0`. -/
theorem zero_word : (FloatOps.ofBits (F := Ideal) .f32 0x00000000#32 : EReal) = 0 := Ideal.ofBits_zero_f32

/-- A value times the converted mask bit is the select between the value and zero. -/
theorem mul_bit (y : EReal) (b : BitVec 1) :
    y * (FloatOps.uitofp (F := Ideal) .f32 b : EReal) = Scalar.select b y (FloatOps.ofBits (F := Ideal) .f32 0x00000000#32) := by
  rcases BitVec.eq_zero_or_eq_one b with h | h <;> subst h
  · rw [bit_zero, select_zero, zero_word, mul_zero]
  · rw [bit_one, select_one, mul_one]

/-- A row entry times (the edge weight times the converted mask bit) is the edge weight times the select between the
    row entry and zero. -/
theorem mul_scaled_bit (x a : EReal) (b : BitVec 1) :
    x * (a * (FloatOps.uitofp (F := Ideal) .f32 b : EReal))
      = a * Scalar.select b x (FloatOps.ofBits (F := Ideal) .f32 0x00000000#32) := by
  rcases BitVec.eq_zero_or_eq_one b with h | h <;> subst h
  · rw [bit_zero, select_zero, zero_word, mul_zero, mul_zero]
  · rw [bit_one, select_one, mul_one, mul_comm]

end Cert.MaskLaws

end
-- ==== Proof.Bridge.lean ====
/-
  The kernel's result and the reference's result are one function of the arguments, on the extended reals.

  Both programs gather at the same clamped start pair `(r, s)` of every edge `e` and add up by the same segments, so
  it is enough to compare what is added and what comes after the sum.
  * What is added, at edge `e` and lane `k`: the kernel has `X[r, s, k] · (A[e] · [M[r, s]])` (the mask bit gathered as
    a number), the reference `A[e] · (if M[r, s] then X[r, s, k] else 0)` (the mask applied before the gather): equal by
    `x · (a · [b]) = a · (if b then x else 0)`.
  * After the sum `Y`: the kernel has `Y[b, n, k] · [T[b, n]]`, the reference `if T[b, n] then Y[b, n, k] else 0`:
    equal by `y · [b] = if b then y else 0`.
-/
import proofs.«136574_j42666205119405_1_alg».proof.Proof.KernelValue
import proofs.«136574_j42666205119405_1_alg».proof.Proof.LibGatherPair
import proofs.«136574_j42666205119405_1_alg».proof.Proof.MaskLaws
import proofs.«136574_j42666205119405_1_alg».proof.Proof.Gen.ReferenceIdeal.Read
import Idealize.ShloMosaic.Lib.Pipeline.Value
import Idealize.ShloMosaic.Lib.ValueIdx

set_option maxRecDepth 16384

noncomputable section

open Idealize.ShloMosaic Idealize.ShloMosaic.ValueIdx

namespace Cert.Bridge

open Cert.LibGatherPair

abbrev N1 : Shape := ⟨1, ![2097152]⟩
abbrev X3 : Shape := ⟨3, ![8, 8192, 64]⟩
abbrev M2 : Shape := ⟨2, ![8, 8192]⟩

variable (x0 x1 x2 : IVec N1 32) (x3 : FVec Ideal N1 .f32) (x4 : FVec Ideal X3 .f32) (x5 x6 : IVec M2 1)

/-- The two programs build the same start indices. -/
theorem startIdx_eq : Cert.ReferenceIdeal.Read.val_main_v15 (F := Ideal) x0 x2 = Cert.KernelIdeal.Valued.startIdx x0 x2 := rfl

/-- The clamped batch index of edge `e`. -/
abbrev row (e : Fin 2097152) : Fin 8 := startRow 8 (Cert.KernelIdeal.Valued.startIdx x0 x2) e (by decide)
/-- The clamped column index of edge `e`. -/
abbrev col (e : Fin 2097152) : Fin 8192 := startCol 8192 (Cert.KernelIdeal.Valued.startIdx x0 x2) e (by decide)

/-- The kernel's gathered row of `X`. -/
theorem kernel_rows (e : Fin 2097152) (k : Fin 64) :
    Host.gather Cert.KernelIdeal.gather_S8x8192x64_S2097152x2_S2097152x64_1_01_n_n_01_1_1164 x4 (Cert.KernelIdeal.Valued.startIdx x0 x2) (ix2 e k)
      = x4 (ix3 (row x0 x2 e) (col x0 x2 e) k) :=
  gather_rows_apply (by decide) (by decide) Cert.KernelIdeal.Gen.gather_S8x8192x64_S2097152x2_S2097152x64_1_01_n_n_01_1_1164_wf x4 _ e k

/-- The kernel's gathered mask number. -/
theorem kernel_cells (y : FVec Ideal M2 .f32) (e : Fin 2097152) :
    Host.gather Cert.KernelIdeal.gather_S8x8192_S2097152x2_S2097152_n_01_n_n_01_1_11 y (Cert.KernelIdeal.Valued.startIdx x0 x2) (ix1 e)
      = y (ix2 (row x0 x2 e) (col x0 x2 e)) :=
  gather_cells_apply (by decide) (by decide) Cert.KernelIdeal.Gen.gather_S8x8192_S2097152x2_S2097152_n_01_n_n_01_1_11_wf y _ e

/-- The reference's gathered row of the masked `X`. -/
theorem reference_rows (y : FVec Ideal X3 .f32) (e : Fin 2097152) (k : Fin 64) :
    Host.gather Cert.ReferenceIdeal.gather_S8x8192x64_S2097152x2_S2097152x64_1_01_n_n_01_1_1164 y (Cert.KernelIdeal.Valued.startIdx x0 x2) (ix2 e k)
      = y (ix3 (row x0 x2 e) (col x0 x2 e) k) :=
  gather_rows_apply (by decide) (by decide) Cert.ReferenceIdeal.Gen.gather_S8x8192x64_S2097152x2_S2097152x64_1_01_n_n_01_1_1164_wf y _ e k

/-- The reference's masked `X` at an entry. -/
theorem masked_apply (r : Fin 8) (s : Fin 8192) (k : Fin 64) :
    Cert.ReferenceIdeal.Read.val_main_v1 (F := Ideal) x4 x5 (ix3 r s k)
      = Scalar.select (x5 (ix2 r s)) (x4 (ix3 r s k)) (FloatOps.ofBits (F := Ideal) .f32 0x00000000#32) := by
  rw [Cert.ReferenceIdeal.Read.val_main_v1_apply, Cert.ReferenceIdeal.Read.val_main_call0_v1_apply,
    Cert.ReferenceIdeal.Read.val_main_v0_apply, Cert.ReferenceIdeal.Read.val_main_call0_v2_apply]
  have hi : Cert.ReferenceIdeal.Read.idx_main_v0 (Cert.ReferenceIdeal.Read.idx_main_call0_v1 (ix3 r s k)) = ix2 r s :=
    funext fun a => Fin.ext (by match a with | ⟨0, _⟩ => rfl | ⟨1, _⟩ => rfl)
  rw [hi]
  rfl

/-- The reference's edge weight spread over the lanes, at an entry. -/
theorem weight_apply (e : Fin 2097152) (k : Fin 64) :
    Cert.ReferenceIdeal.Read.val_main_v17 (F := Ideal) x3 (ix2 e k) = x3 (ix1 e) := by
  rw [Cert.ReferenceIdeal.Read.val_main_v17_apply, Cert.ReferenceIdeal.Read.val_main_v2_apply]
  exact congrArg x3 (funext fun a => Fin.ext (by match a with | ⟨0, _⟩ => rfl))

/-- The kernel's scale column at an entry: the edge weight times the gathered mask number. -/
theorem scale_apply (e : Fin 2097152) :
    shapeCast Cert.KernelIdeal.S2097152x1
        (mulf x3 (Host.gather Cert.KernelIdeal.gather_S8x8192_S2097152x2_S2097152_n_01_n_n_01_1_11 (uitofp (F := Ideal) .f32 x5)
          (Cert.KernelIdeal.Valued.startIdx x0 x2)))
        Cert.KernelIdeal.Gen.shapeCasts_S2097152_S2097152x1 (ix2 e (0 : Fin 1))
      = x3 (ix1 e) * (FloatOps.uitofp (F := Ideal) .f32 (x5 (ix2 (row x0 x2 e) (col x0 x2 e))) : EReal) := by
  rw [shapeCast_apply _ _ (ix2 e (0 : Fin 1)) (ix1 e) (by rw [Shape.rowMajor_val_one, Shape.rowMajor_val_two]; show e.val = e.val * 1 + 0; omega),
    mulf_apply, kernel_cells]
  rfl

/-- WHAT IS ADDED is the same in the two programs. -/
theorem messages_eq : Cert.KernelIdeal.Valued.messages x0 x2 x3 x4 x5
    = Cert.ReferenceIdeal.Read.val_main_v18 (F := Ideal) x0 x2 x3 x4 x5 := by
  funext i
  obtain ⟨e, k, rfl⟩ : ∃ (e : Fin 2097152) (k : Fin 64), i = ix2 e k := ⟨i 0, i 1, eq_ix2 i⟩
  rw [Cert.ReferenceIdeal.Read.val_main_v18_apply, weight_apply]
  unfold Cert.ReferenceIdeal.Read.val_main_v16
  rw [startIdx_eq, reference_rows, masked_apply]
  unfold Cert.KernelIdeal.Valued.messages Cert.KernelIdeal.ScaleRegion.scaleRows
  show Host.gather _ x4 _ (ix2 e k) * shapeCast _ _ _ (ix2 e (0 : Fin 1)) = _
  rw [kernel_rows, scale_apply]
  exact Cert.MaskLaws.mul_scaled_bit _ _ _

/-- THE TWO RESULTS are one function of the arguments. -/
theorem result_eq : Cert.KernelIdeal.Valued.result x0 x1 x2 x3 x4 x5 x6
    = Cert.ReferenceIdeal.Read.val_main_v27 (F := Ideal) x0 x1 x2 x3 x4 x5 x6 := by
  have hsum : Cert.KernelIdeal.Valued.segmentSums x0 x1 (Cert.KernelIdeal.Valued.messages x0 x2 x3 x4 x5)
      = Cert.ReferenceIdeal.Read.val_main_v25 (F := Ideal) x0 x1 x2 x3 x4 x5 := by
    rw [messages_eq]; rfl
  funext i
  obtain ⟨b, n, k, rfl⟩ : ∃ (b : Fin 8) (n : Fin 8192) (k : Fin 64), i = ix3 b n k := ⟨i 0, i 1, i 2, eq_ix3 i⟩
  rw [Cert.ReferenceIdeal.Read.val_main_v27_apply, Cert.ReferenceIdeal.Read.val_main_call1_v1_apply,
    Cert.ReferenceIdeal.Read.val_main_v26_apply, Cert.ReferenceIdeal.Read.val_main_call1_v2_apply]
  have hi : Cert.ReferenceIdeal.Read.idx_main_v26 (Cert.ReferenceIdeal.Read.idx_main_call1_v1 (ix3 b n k)) = ix2 b n :=
    funext fun a => Fin.ext (by match a with | ⟨0, _⟩ => rfl | ⟨1, _⟩ => rfl)
  rw [hi]
  unfold Cert.KernelIdeal.Valued.result Cert.KernelIdeal.MaskRegion.maskRows
  rw [hsum]
  show Cert.ReferenceIdeal.Read.val_main_v25 (F := Ideal) x0 x1 x2 x3 x4 x5 (ix3 b n k)
      * shapeCast Cert.KernelIdeal.S8x8192x1 (uitofp (F := Ideal) .f32 x6) Cert.KernelIdeal.Gen.shapeCasts_S8x8192_S8x8192x1 (ix3 b n (0 : Fin 1)) = _
  rw [shapeCast_apply _ _ (ix3 b n (0 : Fin 1)) (ix2 b n)
    (by rw [Shape.rowMajor_val_two, Shape.rowMajor_val_three]; show b.val * 8192 + n.val = (b.val * 8192 + n.val) * 1 + 0; omega)]
  exact Cert.MaskLaws.mul_bit _ _

end Cert.Bridge

end
-- ==== Proof.lean ====
/-
  Message passing over a batch of sparse matrices: `out[b, i, :] = Σ_e [batch e = b, row e = i] · A[e] · X[b, col e, :]`
  with `X` masked by `X_mask` and the sum masked by `tarX_mask`.

  The kernel gathers the rows of `X` and the mask numbers at the edges' (batch, column) pairs, scales each gathered row
  by (edge weight · mask number) in a first pallas_call, adds the scaled rows up by segment on the host, and multiplies
  the sums by the target mask's number in a second pallas_call. The reference masks `X` by a select before the gather,
  scales by the edge weight, adds up by the same segments and masks the sums by a select. On the extended reals the two
  are one function of the arguments: `x · (a · [b]) = a · (if b then x else 0)` and `y · [b] = if b then y else 0`
  (Proof/MaskLaws.lean; `x · 0 = 0` for every extended real, so no finiteness is used), applied entry by entry
  (Proof/Bridge.lean) to the kernel's result read off its two regions (Proof/Region0.lean, Proof/Region1.lean,
  Proof/KernelValue.lean) and the reference's run read one operation at a time.

  The frames: the kernel's two are the launch over its four segments; the reference's is its run with the result
  dropped. The idealization rewrote nothing, so `preserves` has nothing to state.
-/
import proofs.«136574_j42666205119405_1_alg».proof.Defs
import proofs.«136574_j42666205119405_1_alg».proof.Proof.Gen.Kernel
import proofs.«136574_j42666205119405_1_alg».proof.Proof.Gen.Kernel.Skeleton
import proofs.«136574_j42666205119405_1_alg».proof.Proof.Gen.Kernel.Launch
import proofs.«136574_j42666205119405_1_alg».proof.Proof.Gen.Kernel.Points
import proofs.«136574_j42666205119405_1_alg».proof.Proof.Gen.Kernel.Frame
import proofs.«136574_j42666205119405_1_alg».proof.Proof.Gen.KernelIdeal
import proofs.«136574_j42666205119405_1_alg».proof.Proof.Gen.KernelIdeal.Skeleton
import proofs.«136574_j42666205119405_1_alg».proof.Proof.Gen.KernelIdeal.Launch
import proofs.«136574_j42666205119405_1_alg».proof.Proof.Gen.KernelIdeal.Points
import proofs.«136574_j42666205119405_1_alg».proof.Proof.Gen.KernelIdeal.Frame
import proofs.«136574_j42666205119405_1_alg».proof.Proof.Gen.ReferenceIdeal
import proofs.«136574_j42666205119405_1_alg».proof.Proof.Gen.Pre_finite_inputs
import proofs.«136574_j42666205119405_1_alg».proof.Proof.Gen.ReferenceIdeal.Run
import proofs.«136574_j42666205119405_1_alg».proof.Proof.Gen.ReferenceIdeal.Read
import proofs.«136574_j42666205119405_1_alg».proof.Proof.KernelValue
import proofs.«136574_j42666205119405_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments: the launch over its segments. -/
theorem frame_kernel : Cert.frame_Kernel := fun m ρ _ => Cert.Kernel.Gen.frame m ρ

/-- The idealized kernel runs and leaves its arguments: the same launch at the ideal instance. -/
theorem frame_kernelIdeal : Cert.frame_KernelIdeal := fun m ρ _ => Cert.KernelIdeal.Gen.frame m ρ

/-- The idealized reference runs and leaves its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the result array at ONE function of the
    arguments: the kernel's two regions and host stretches read as a value, the reference's run read one operation at a
    time, and the two equal entry by entry. -/
theorem algebraic : Cert.algebraic_KernelIdeal_ReferenceIdeal := by
  intro m ρ m' ρ' _ hagree
  refine ⟨fun c => Cert.KernelIdeal.Valued.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Valued.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2.1, (hagree c).2.2.2.2.2.1, (hagree c).2.2.2.2.2.2]
  exact (Cert.Bridge.result_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
